-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x1 : Shape := ⟨2, ![16384, 1]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048 .f32) (main_arg5 : FVec F S2048x1024 .f32) (main_arg6 : FVec F S1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16384x1024 .f32) (main_arg1 : FVec F S16384x1 .f32) (main_arg2 : FVec F S16384x1024 .f32) (main_arg3 : FVec F S2048x2048 .f32) (main_arg4 : FVec F S2048 .f32) (main_arg5 : FVec F S2048x1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S16384x1024 : Shape := ⟨2, ![16384, 1024]⟩
abbrev S16384x1 : Shape := ⟨2, ![16384, 1]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S1024x2048 : Shape := ⟨2, ![1024, 2048]⟩
abbrev S1024x1024 : Shape := ⟨2, ![1024, 1024]⟩
abbrev S256x1024 : Shape := ⟨2, ![256, 1024]⟩
abbrev S256x1 : Shape := ⟨2, ![256, 1]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 16
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1, .f32⟩
  | .hbm, ⟨2, _⟩ => ⟨S16384x1024, .f32⟩
  | .hbm, ⟨3, _⟩ => ⟨S2048x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x2048, .f32⟩
  | .hbm, ⟨8, _⟩ => ⟨S1024x2048, .bf16⟩
  | .hbm, ⟨9, _⟩ => ⟨S1024x2048, .f32⟩
  | .hbm, ⟨10, _⟩ => ⟨S1024x2048, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S1024x2048, .bf16⟩
  | .local _ .vmem, ⟨7, _⟩ => ⟨S1024x2048, .bf16⟩
  | .local _ .vmem, ⟨8, _⟩ => ⟨S2048, .f32⟩
  | .local _ .vmem, ⟨9, _⟩ => ⟨S1024x1024, .bf16⟩
  | .local _ .vmem, ⟨10, _⟩ => ⟨S1024x1024, .bf16⟩
  | .local _ .vmem, ⟨11, _⟩ => ⟨S1024, .f32⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2048x2048_S1024x2048_0_0 : S2048x2048.Slices ![0, 0] S1024x2048
  bitsLt_bf16_f32 : FTy.bits .bf16 < FTy.bits .f32
  slices_S2048x2048_S1024x2048_1024_0 : S2048x2048.Slices ![1024, 0] S1024x2048
  slices_S2048x1024_S1024x1024_0_0 : S2048x1024.Slices ![0, 0] S1024x1024
  slices_S2048x1024_S1024x1024_1024_0 : S2048x1024.Slices ![1024, 0] S1024x1024
  inb_S256x1024_S256x1024_0_0 : ∀ a, (![0, 0] : Fin 2 → Nat) a + S256x1024.size a ≤ S256x1024.size a
  h_S256x1024 : 0 < S256x1024.numel
  inb_S256x1_S256x1_0_0 : ∀ a, (![0, 0] : Fin 2 → Nat) a + S256x1.size a ≤ S256x1.size a
  h_S256x1 : 0 < S256x1.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  broadcasts_S256x1_S256x1024 : S256x1.Broadcasts S256x1024
  dot_S256x1024_S1024x2048_S256x2048_1_0_0_1_n_n_wf : DotDims.WF S256x1024 S1024x2048 S256x2048 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S16384x1024.size a
  hwx0_9 : ∀ i : grid0.Coords, EltTy.bits .f32 = 32 ∨ (Rect.block (s := S16384x1024) S256x1024.size (cc0_transform_9 i) (hinb0_9 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384x1 : Shape := ⟨2, ![16384, 1]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S16384x2048 : Shape := ⟨2, ![16384, 2048]⟩
abbrev S1x2048 : Shape := ⟨2, ![1, 2048]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1, .f32⟩
  | .hbm, ⟨2, _⟩ => ⟨S16384x1024, .f32⟩
  | .hbm, ⟨3, _⟩ => ⟨S2048x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S16384x2048, .f32⟩
  | .hbm, ⟨8, _⟩ => ⟨S16384x2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x2048, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  slices_S16384x2048_S16384x1024_0_0 : S16384x2048.Slices ![0, 0] S16384x1024
  slices_S16384x2048_S16384x1024_0_1024 : S16384x2048.Slices ![0, 1024] S16384x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  dot_S16384x2048_S2048x2048_S16384x2048_1_0_0_1_n_n_wf : DotDims.WF S16384x2048 S2048x2048 S16384x2048 [1] [0] [0] [1] [] []
  dot_S16384x2048_S2048x1024_S16384x1024_1_0_0_1_n_n_wf : DotDims.WF S16384x2048 S2048x1024 S16384x1024 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.Cell.lean ====
/-
  One entry of an attention-gated GRU cell's new state, as a function of ONE batch row of its inputs.

  For a row `x` of the input, the same row `h` of the previous state, the row's attention score `a`, the gate
  weights split by rows into the part `Wgx` that meets `x` and the part `Wgh` that meets `h`, the gate bias `bg`,
  the candidate weights split the same way (`Wcx`, `Wch`) and the candidate bias `bc`:

    gate n  = σ ((Σₖ xₖ · Wgx k n + Σₖ hₖ · Wgh k n) + bg n)          for the 2048 gate columns n,
    rₖ      = gate k          (the reset gate: the first 1024 columns),
    u_q     = gate (1024 + q) (the update gate: the last 1024 columns),
    c_q     = tanh ((Σₖ xₖ · Wcx k q + Σₖ (rₖ · hₖ) · Wch k q) + bc q),
    u'_q    = (1 - a) · u_q,
    new_q   = u'_q · h_q + (1 - u'_q) · c_q.

  Everything is an extended real and every operation the exact one, so the only law used between two arrangements
  of this value is that a sum over 2048 = 1024 + 1024 indices is the sum over the first 1024 plus the sum over the
  last 1024 (`sum_lo_hi`): it holds in any commutative additive monoid, the extended reals with their infinities
  included, and needs no finiteness.
-/
import Idealize.ShloMosaic.PureOps.Ideal
import Idealize.ShloMosaic.Lib.ValueIdx
import Mathlib.Algebra.BigOperators.Fin

noncomputable section

namespace Cert.Gru

open Idealize.ShloMosaic Idealize.ShloMosaic.ValueIdx

/-- Index `k` of the first half of the 2048 joined indices. -/
def lo (k : Fin 1024) : Fin 2048 := ⟨k.val, by have := k.isLt; omega⟩
/-- Index `k` of the second half: `1024 + k`. -/
def hi (k : Fin 1024) : Fin 2048 := ⟨1024 + k.val, by have := k.isLt; omega⟩

@[simp] theorem lo_val (k : Fin 1024) : (lo k).val = k.val := rfl
@[simp] theorem hi_val (k : Fin 1024) : (hi k).val = 1024 + k.val := rfl

/-- A sum over the 2048 joined indices is the sum over the first half plus the sum over the second half. -/
theorem sum_lo_hi {M : Type*} [AddCommMonoid M] (f : Fin 2048 → M) :
    ∑ k : Fin 2048, f k = ∑ k : Fin 1024, f (lo k) + ∑ k : Fin 1024, f (hi k) :=
  Fin.sum_univ_add (a := 1024) (b := 1024) f

/-- One gate column of a row: the logistic of the row's two products with the split gate weights, plus the bias. -/
def gate (xr hr : Fin 1024 → EReal) (Wx Wh : Fin 1024 → Fin 2048 → EReal) (b : Fin 2048 → EReal) (n : Fin 2048) : EReal :=
  Ideal.logistic ((∑ k : Fin 1024, xr k * Wx k n + ∑ k : Fin 1024, hr k * Wh k n) + b n)

/-- One candidate column of a row: the hyperbolic tangent of the row's product with `Wcx`, plus the product of the
    reset-gated state row with `Wch`, plus the bias. -/
def cand (xr hr : Fin 1024 → EReal) (Wgx Wgh : Fin 1024 → Fin 2048 → EReal) (bg : Fin 2048 → EReal)
    (Wcx Wch : Fin 1024 → Fin 1024 → EReal) (bc : Fin 1024 → EReal) (q : Fin 1024) : EReal :=
  Ideal.tanh ((∑ k : Fin 1024, xr k * Wcx k q + ∑ k : Fin 1024, (gate xr hr Wgx Wgh bg (lo k) * hr k) * Wch k q) + bc q)

/-- Column `q` of the row's new state. -/
def cell (xr hr : Fin 1024 → EReal) (a : EReal) (Wgx Wgh : Fin 1024 → Fin 2048 → EReal) (bg : Fin 2048 → EReal)
    (Wcx Wch : Fin 1024 → Fin 1024 → EReal) (bc : Fin 1024 → EReal) (q : Fin 1024) : EReal :=
  ((1 - a) * gate xr hr Wgx Wgh bg (hi q)) * hr q
    + (1 - (1 - a) * gate xr hr Wgx Wgh bg (hi q)) * cand xr hr Wgx Wgh bg Wcx Wch bc q

/-- The whole new state [16384, 1024] as ONE function of the seven argument arrays: entry (b, q) is `cell` of row
    `b` of the input and of the state, the score of row `b`, and the weights split at row 1024. -/
def newState (X H : (⟨2, ![16384, 1024]⟩ : Shape).Idx → EReal) (A : (⟨2, ![16384, 1]⟩ : Shape).Idx → EReal)
    (Wg : (⟨2, ![2048, 2048]⟩ : Shape).Idx → EReal) (Bg : (⟨1, ![2048]⟩ : Shape).Idx → EReal)
    (Wc : (⟨2, ![2048, 1024]⟩ : Shape).Idx → EReal) (Bc : (⟨1, ![1024]⟩ : Shape).Idx → EReal) :
    (⟨2, ![16384, 1024]⟩ : Shape).Idx → EReal := fun i =>
  cell (fun k => X (ix2 (i 0 : Fin 16384) k)) (fun k => H (ix2 (i 0 : Fin 16384) k)) (A (ix2 (i 0 : Fin 16384) (0 : Fin 1)))
    (fun k n => Wg (ix2 (lo k) n)) (fun k n => Wg (ix2 (hi k) n)) (fun n => Bg (ix1 n))
    (fun k n => Wc (ix2 (lo k) n)) (fun k n => Wc (ix2 (hi k) n)) (fun n => Bc (ix1 n)) (i 1 : Fin 1024)

end Cert.Gru

end
-- ==== Proof.KernelPay.lean ====
/-
  The kernel body's arithmetic read at an index, at the ideal values.

  One grid point holds 256 batch rows. Its body forms the gate block [256, 2048] as the logistic of
  (x-block · Wgx) + (h-block · Wgh) + bg, and the candidate block [256, 1024] as the hyperbolic tangent of
  (x-block · Wcx) + ((r ∘ h)-block · Wch) + bc, where r is the first 1024 columns of the gate block. Read at row `p`
  of the block and a column, each is the per-row function of Proof/Cell.lean (`Gru.gate`, `Gru.cand`) of row `p` of
  the two loaded blocks and of the loaded weights: a matrix product into a zero accumulator is the plain sum over the
  contracted index, a change of float format is the identity, and the bias row is broadcast down the 256 rows.
-/
import proofs.«152979_j13134009991515_1_alg».proof.Proof.Gen.KernelIdeal.Skeleton
import proofs.«152979_j13134009991515_1_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Gru

/-! ## The gate product at an index -/

theorem lhs_gate_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhs_gate_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhs_gate_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhs_gate_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- A [256, 1024] × [1024, 2048] product into the zero accumulator, at row `p` and column `n`, is the sum over the 1024
    contracted indices of the left row's entries times the right column's: no rounding and no order at `Ideal`. -/
theorem matmul_gate_apply (l : FVec Ideal S256x1024 .bf16) (r : FVec Ideal S1024x2048 .bf16) (p : Fin 256) (n : Fin 2048) :
    matmul dot_S256x1024_S1024x2048_S256x2048_1_0_0_1_n_n none l r (constant (F := Ideal) S256x2048 .f32 0x00000000#32) (ix2 p n)
      = ∑ k : Fin 1024, l (ix2 p k) * r (ix2 k n) := by
  simp only [matmul]
  rw [Ideal.matmul_constant_zero_apply, ← Equiv.sum_comp (ValueIdx.contrEquiv1 dot_S256x1024_S1024x2048_S256x2048_1_0_0_1_n_n 1024 rfl rfl).symm]
  refine Finset.sum_congr rfl fun k _ => ?_
  have hk := ValueIdx.contrEquiv1_symm_val dot_S256x1024_S1024x2048_S256x2048_1_0_0_1_n_n 1024 rfl rfl k
  have el : dot_S256x1024_S1024x2048_S256x2048_1_0_0_1_n_n.lhsIdx (ix2 p n) ((ValueIdx.contrEquiv1 dot_S256x1024_S1024x2048_S256x2048_1_0_0_1_n_n 1024 rfl rfl).symm k) = ix2 p k := funext fun a => Fin.ext (by
    match a with
    | ⟨0, _⟩ => exact lhs_gate_0 _ _
    | ⟨1, _⟩ => exact (lhs_gate_1 _ _).trans hk)
  have er : dot_S256x1024_S1024x2048_S256x2048_1_0_0_1_n_n.rhsIdx (ix2 p n) ((ValueIdx.contrEquiv1 dot_S256x1024_S1024x2048_S256x2048_1_0_0_1_n_n 1024 rfl rfl).symm k) = ix2 k n := funext fun a => Fin.ext (by
    match a with
    | ⟨0, _⟩ => exact (rhs_gate_0 _ _).trans hk
    | ⟨1, _⟩ => exact rhs_gate_1 _ _)
  rw [el, er]

/-! ## The candidate product at an index -/

theorem lhs_cand_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_cand_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_cand_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_cand_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A [256, 1024] × [1024, 1024] product into the zero accumulator, at row `p` and column `n`, is the sum over the 1024
    contracted indices of the left row's entries times the right column's: no rounding and no order at `Ideal`. -/
theorem matmul_cand_apply (l : FVec Ideal S256x1024 .bf16) (r : FVec Ideal S1024x1024 .bf16) (p : Fin 256) (n : Fin 1024) :
    matmul dot_S256x1024_S1024x1024_S256x1024_1_0_0_1_n_n none l r (constant (F := Ideal) S256x1024 .f32 0x00000000#32) (ix2 p n)
      = ∑ k : Fin 1024, l (ix2 p k) * r (ix2 k n) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p n) ((ValueIdx.contrEquiv1 dot_S256x1024_S1024x1024_S256x1024_1_0_0_1_n_n 1024 rfl rfl).symm k) = ix2 p k := funext fun a => Fin.ext (by
    match a with
    | ⟨0, _⟩ => exact lhs_cand_0 _ _
    | ⟨1, _⟩ => exact (lhs_cand_1 _ _).trans hk)
  have er : dot_S256x1024_S1024x1024_S256x1024_1_0_0_1_n_n.rhsIdx (ix2 p n) ((ValueIdx.contrEquiv1 dot_S256x1024_S1024x1024_S256x1024_1_0_0_1_n_n 1024 rfl rfl).symm k) = ix2 k n := funext fun a => Fin.ext (by
    match a with
    | ⟨0, _⟩ => exact (rhs_cand_0 _ _).trans hk
    | ⟨1, _⟩ => exact rhs_cand_1 _ _)
  rw [el, er]

/-! ## The pointwise transcendental operations at an index -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-! ## The gate block and the candidate block at an index -/

/-- The gate block at row `p`, column `n`: `Gru.gate` of row `p` of the input block and of the state block. -/
theorem pay3_apply (x0 x1 : Vec Ideal S256x1024 .f32) (x3 x4 : Vec Ideal S1024x2048 .bf16) (x5 : Vec Ideal S2048 .f32)
    (p : Fin 256) (n : Fin 2048) :
    k0_pay3 x0 x1 x3 x4 x5 (ix2 p n)
      = gate (fun k => x0 (ix2 p k)) (fun k => x1 (ix2 p k)) (fun k n => x3 (ix2 k n)) (fun k n => x4 (ix2 k n))
          (fun n => x5 (ix1 n)) n := by
  unfold k0_pay3 k0_pay2 gate
  dsimp only
  rw [logistic_apply, addf_apply, addf_apply, matmul_gate_apply, matmul_gate_apply, broadcastTo_1b_ab_apply,
    shapeCast_a_1a_apply, shapeCast_self, shapeCast_self]
  rfl

/-- The candidate block at row `p`, column `q`: `Gru.cand` of row `p` of the input block and of the state block. -/
theorem pay4_apply (x0 x1 : Vec Ideal S256x1024 .f32) (x3 x4 : Vec Ideal S1024x2048 .bf16) (x5 : Vec Ideal S2048 .f32)
    (x6 x7 : Vec Ideal S1024x1024 .bf16) (x8 : Vec Ideal S1024 .f32) (p : Fin 256) (q : Fin 1024) :
    k0_pay4 x0 x1 x3 x4 x5 x6 x7 x8 (ix2 p q)
      = cand (fun k => x0 (ix2 p k)) (fun k => x1 (ix2 p k)) (fun k n => x3 (ix2 k n)) (fun k n => x4 (ix2 k n))
          (fun n => x5 (ix1 n)) (fun k n => x6 (ix2 k n)) (fun k n => x7 (ix2 k n)) (fun n => x8 (ix1 n)) q := by
  unfold k0_pay4 k0_pay2 cand
  dsimp only
  rw [tanh_apply, addf_apply, addf_apply, matmul_cand_apply, matmul_cand_apply, broadcastTo_1b_ab_apply,
    shapeCast_a_1a_apply, shapeCast_self, shapeCast_self]
  refine congrArg Ideal.tanh (congrArg (· + x8 (ix1 q)) (congrArg (_ + ·) (Finset.sum_congr rfl fun k _ => ?_)))
  refine congrArg (· * x7 (ix2 k q)) ?_
  show (extractStridedSlice S256x1024 ![0, 0] (k0_pay3 x0 x1 x3 x4 x5) slices_S256x2048_o0_0_S256x1024 (ix2 p k)) * x1 (ix2 p k) = _
  rw [extractStridedSlice_apply ![0, 0] (k0_pay3 x0 x1 x3 x4 x5) slices_S256x2048_o0_0_S256x1024 (ix2 p k) (ix2 p (lo k))
    (fun a => match a with
      | ⟨0, _⟩ => by show p.val = 0 + p.val; omega
      | ⟨1, _⟩ => by show k.val = 0 + k.val; omega), pay3_apply]

end Cert.KernelIdeal.Body

end
-- ==== Proof.KernelValue.lean ====
/-
  The kernel's result array after the run is the cell's new state of the arguments.

  The grid has 64 points; point `t` works on batch rows 256·t … 256·t + 255. Its input, state and score windows hold
  those rows of the arguments; the four weight windows hold, whole, the arrays the host prepared before the call (the
  first and the last 1024 rows of the gate weights and of the candidate weights, a change of float format being the
  identity at `Ideal`), and the two bias windows hold the biases whole. So what the body leaves in the output block
  (Proof/KernelPay.lean over the generated `E9`) is, at row `p` and column `q` of the block, `Gru.cell` of row
  256·t + p of the arguments: block `t` of ONE whole-array function (`Gru.newState`, Proof/Cell.lean). The 64
  blocks cover the array (row `r` is in block `r / 256`), so the array ends as that function.
-/
import proofs.«152979_j13134009991515_1_alg».proof.Proof.Gen.KernelIdeal.Value
import proofs.«152979_j13134009991515_1_alg».proof.Proof.KernelPay
import Idealize.ShloMosaic.Lib.StableHlo.Run
import Idealize.ShloMosaic.Lib.IdealHost

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Idealize.ShloMosaic.StableHlo Cert.Gru
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The body's output block, row by row -/

/-- Congruence of `Gru.cell` in every argument. -/
theorem cell_congr {xr xr' hr hr' : Fin 1024 → EReal} {a a' : EReal} {Wgx Wgx' Wgh Wgh' : Fin 1024 → Fin 2048 → EReal}
    {bg bg' : Fin 2048 → EReal} {Wcx Wcx' Wch Wch' : Fin 1024 → Fin 1024 → EReal} {bc bc' : Fin 1024 → EReal} {q q' : Fin 1024}
    (h1 : xr = xr') (h2 : hr = hr') (h3 : a = a') (h4 : Wgx = Wgx') (h5 : Wgh = Wgh') (h6 : bg = bg') (h7 : Wcx = Wcx')
    (h8 : Wch = Wch') (h9 : bc = bc') (h10 : q = q') :
    cell xr hr a Wgx Wgh bg Wcx Wch bc q = cell xr' hr' a' Wgx' Wgh' bg' Wcx' Wch' bc' q' := by
  subst h1 h2 h3 h4 h5 h6 h7 h8 h9 h10; rfl

/-- The block the body's one store leaves, read through the generated `E9`, at row `p` and column `q`: `Gru.cell` of
    row `p` of the loaded input and state blocks, the row's score, and the loaded weights and biases. -/
theorem E9_apply (P0 : Vec Ideal S256x1 .f32) (P1 P2 : Vec Ideal S256x1024 .f32) (P3 P4 : Vec Ideal S1024x2048 .bf16)
    (P5 : Vec Ideal S2048 .f32) (P6 P7 : Vec Ideal S1024x1024 .bf16) (P8 : Vec Ideal S1024 .f32) (p : Fin 256) (q : Fin 1024) :
    E9 P0 P1 P2 P3 P4 P5 P6 P7 P8 (ix2 p q)
      = cell (fun k => P1 (ix2 p k)) (fun k => P2 (ix2 p k)) (P0 (ix2 p (0 : Fin 1))) (fun k n => P3 (ix2 k n))
          (fun k n => P4 (ix2 k n)) (fun n => P5 (ix1 n)) (fun k n => P6 (ix2 k n)) (fun k n => P7 (ix2 k n))
          (fun n => P8 (ix1 n)) q := by
  have i0 : ix9_0 (ix2 p q) = ix2 p (0 : Fin 1) := funext fun a => Fin.ext (by
    match a with | ⟨0, _⟩ => rfl | ⟨1, _⟩ => rfl)
  have i1 : ix9_1 (ix2 p q) = ix2 p (hi q) := funext fun a => Fin.ext (by
    match a with | ⟨0, _⟩ => rfl | ⟨1, _⟩ => show q.val + 1024 = 1024 + q.val; omega)
  have i2 : ix9_2 (ix2 p q) = ix2 p q := funext fun a => Fin.ext (by
    match a with | ⟨0, _⟩ => rfl | ⟨1, _⟩ => rfl)
  have i3 : ix9_3 (ix2 p q) = ix2 p (0 : Fin 1) := funext fun a => Fin.ext (by
    match a with | ⟨0, _⟩ => rfl | ⟨1, _⟩ => rfl)
  have i4 : ix9_4 (ix2 p q) = ix2 p (hi q) := funext fun a => Fin.ext (by
    match a with | ⟨0, _⟩ => rfl | ⟨1, _⟩ => show q.val + 1024 = 1024 + q.val; omega)
  have i5 : ix9_5 (ix2 p q) = ix2 p q := funext fun a => Fin.ext (by
    match a with | ⟨0, _⟩ => rfl | ⟨1, _⟩ => rfl)
  dsimp only [E9]
  rw [i0, i1, i2, i3, i4, i5, pay3_apply, pay4_apply]
  unfold cell
  simp only [Ideal.addf_def, Ideal.mulf_def, Ideal.subf_def]
  rw [show (Scalar.ofBits (F := Ideal) .f32 0x3F800000#32 : EReal) = 1 from Ideal.ofBits_one_f32]

/-- The same for the frame's name of that block, over any input blocks. -/
theorem out_apply (x0 x1 : Vec Ideal S256x1024 .f32) (x2 : Vec Ideal S256x1 .f32) (x3 x4 : Vec Ideal S1024x2048 .bf16)
    (x5 : Vec Ideal S2048 .f32) (x6 x7 : Vec Ideal S1024x1024 .bf16) (x8 : Vec Ideal S1024 .f32) (p : Fin 256) (q : Fin 1024) :
    out0_9 x0 x1 x2 x3 x4 x5 x6 x7 x8 (ix2 p q)
      = cell (fun k => x0 (ix2 p k)) (fun k => x1 (ix2 p k)) (x2 (ix2 p (0 : Fin 1))) (fun k n => x3 (ix2 k n))
          (fun k n => x4 (ix2 k n)) (fun n => x5 (ix1 n)) (fun k n => x6 (ix2 k n)) (fun k n => x7 (ix2 k n))
          (fun n => x8 (ix1 n)) q := by
  unfold out0_9
  rw [canon9_eq, E9_apply]
  rw [View.ld_unit_zero (S := S256x1024) hz2 inb_S256x1024_S256x1024_0_0 x0, View.ld_unit_zero (S := S256x1024) hz2 inb_S256x1024_S256x1024_0_0 x1,
    View.ld_unit_zero (S := S256x1) hz2 inb_S256x1_S256x1_0_0 x2, View.ld_unit_zero (S := S1024x2048) hz2 inb_S1024x2048_S1024x2048_0_0 x3,
    View.ld_unit_zero (S := S1024x2048) hz2 inb_S1024x2048_S1024x2048_0_0 x4, View.ld_unit_zero (S := S2048) hz1 inb_S2048_S2048_0 x5,
    View.ld_unit_zero (S := S1024x1024) hz2 inb_S1024x1024_S1024x1024_0_0 x6, View.ld_unit_zero (S := S1024x1024) hz2 inb_S1024x1024_S1024x1024_0_0 x7,
    View.ld_unit_zero (S := S1024) hz1 inb_S1024_S1024_0 x8]

/-! ## What the host wrote before the call -/

theorem V_v1 (c : Dev nD) : (V m c main_v1 : S1024x2048.Idx → EReal)
    = (truncf (F := Ideal) .bf16 (extractStridedSlice S1024x2048 ![0, 0] (m ((c : Thread nD τ).loc main_arg3)) slices_S2048x2048_S1024x2048_0_0) bitsLt_bf16_f32 : S1024x2048.Idx → EReal) := by
  dsimp only [Gen.V, Gen.hostOps0]; after_results
theorem V_v3 (c : Dev nD) : (V m c main_v3 : S1024x2048.Idx → EReal)
    = (truncf (F := Ideal) .bf16 (extractStridedSlice S1024x2048 ![1024, 0] (m ((c : Thread nD τ).loc main_arg3)) slices_S2048x2048_S1024x2048_1024_0) bitsLt_bf16_f32 : S1024x2048.Idx → EReal) := by
  dsimp only [Gen.V, Gen.hostOps0]; after_results
theorem V_v5 (c : Dev nD) : (V m c main_v5 : S1024x1024.Idx → EReal)
    = (truncf (F := Ideal) .bf16 (extractStridedSlice S1024x1024 ![0, 0] (m ((c : Thread nD τ).loc main_arg5)) slices_S2048x1024_S1024x1024_0_0) bitsLt_bf16_f32 : S1024x1024.Idx → EReal) := by
  dsimp only [Gen.V, Gen.hostOps0]; after_results
theorem V_v7 (c : Dev nD) : (V m c main_v7 : S1024x1024.Idx → EReal)
    = (truncf (F := Ideal) .bf16 (extractStridedSlice S1024x1024 ![1024, 0] (m ((c : Thread nD τ).loc main_arg5)) slices_S2048x1024_S1024x1024_1024_0) bitsLt_bf16_f32 : S1024x1024.Idx → EReal) := by
  dsimp only [Gen.V, Gen.hostOps0]; after_results

/-- The first prepared gate-weight array at (k, n) is the gate weights at (k, n). -/
theorem V_v1_apply (c : Dev nD) (k : Fin 1024) (n : Fin 2048) :
    (V m c main_v1 : S1024x2048.Idx → EReal) (ix2 k n) = (m ((c : Thread nD τ).loc main_arg3) : S2048x2048.Idx → EReal) (ix2 (lo k) n) := by
  rw [V_v1]
  exact extractStridedSlice_apply ![0, 0] _ slices_S2048x2048_S1024x2048_0_0 (ix2 k n) (ix2 (lo k) n) (fun a => match a with
    | ⟨0, _⟩ => by show k.val = 0 + k.val; omega
    | ⟨1, _⟩ => by show n.val = 0 + n.val; omega)
/-- The second at (k, n) is the gate weights at (1024 + k, n). -/
theorem V_v3_apply (c : Dev nD) (k : Fin 1024) (n : Fin 2048) :
    (V m c main_v3 : S1024x2048.Idx → EReal) (ix2 k n) = (m ((c : Thread nD τ).loc main_arg3) : S2048x2048.Idx → EReal) (ix2 (hi k) n) := by
  rw [V_v3]
  exact extractStridedSlice_apply ![1024, 0] _ slices_S2048x2048_S1024x2048_1024_0 (ix2 k n) (ix2 (hi k) n) (fun a => match a with
    | ⟨0, _⟩ => by show 1024 + k.val = 1024 + k.val; omega
    | ⟨1, _⟩ => by show n.val = 0 + n.val; omega)
/-- The first prepared candidate-weight array at (k, n) is the candidate weights at (k, n). -/
theorem V_v5_apply (c : Dev nD) (k : Fin 1024) (n : Fin 1024) :
    (V m c main_v5 : S1024x1024.Idx → EReal) (ix2 k n) = (m ((c : Thread nD τ).loc main_arg5) : S2048x1024.Idx → EReal) (ix2 (lo k) n) := by
  rw [V_v5]
  exact extractStridedSlice_apply ![0, 0] _ slices_S2048x1024_S1024x1024_0_0 (ix2 k n) (ix2 (lo k) n) (fun a => match a with
    | ⟨0, _⟩ => by show k.val = 0 + k.val; omega
    | ⟨1, _⟩ => by show n.val = 0 + n.val; omega)
/-- The second at (k, n) is the candidate weights at (1024 + k, n). -/
theorem V_v7_apply (c : Dev nD) (k : Fin 1024) (n : Fin 1024) :
    (V m c main_v7 : S1024x1024.Idx → EReal) (ix2 k n) = (m ((c : Thread nD τ).loc main_arg5) : S2048x1024.Idx → EReal) (ix2 (hi k) n) := by
  rw [V_v7]
  exact extractStridedSlice_apply ![1024, 0] _ slices_S2048x1024_S1024x1024_1024_0 (ix2 k n) (ix2 (hi k) n) (fun a => match a with
    | ⟨0, _⟩ => by show 1024 + k.val = 1024 + k.val; omega
    | ⟨1, _⟩ => by show n.val = 0 + n.val; omega)

/-! ## The windows' blocks as rows of the arguments -/

/-- The printed index maps over the 64 points: the three batch-tiled inputs and the output are at block (t, 0), every
    weight and bias window at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- The input window's block at point `t`, row `p`: row `R = 256 t + p` of the input. -/
theorem blk_x (c : Dev nD) (t : Fin cfg0.N) (p : Fin 256) (k : Fin 1024) (R : Fin 16384) (hR : R.val = t.val * 256 + p.val) :
    (iblk m c 0 t : Vec Ideal S256x1024 .f32) (ix2 p k) = (m ((c : Thread nD τ).loc main_arg0) : S16384x1024.Idx → EReal) (ix2 R k) := by
  obtain ⟨e0, e1, -⟩ := idx_facts t
  unfold iblk
  rw [View.read_apply]
  show V m c main_arg0 _ = _
  rw [V_main_arg0]
  congr 1
  funext a; apply Fin.ext
  match a with
  | ⟨0, _⟩ => show win0_0.index t (0 : Fin 2) * 256 + 1 * p.val = R.val; rw [e0, hR]; omega
  | ⟨1, _⟩ => show win0_0.index t (1 : Fin 2) * 1024 + 1 * k.val = k.val; rw [e1]; omega

/-- The state window's block at point `t`, row `p`: row `R` of the state. -/
theorem blk_h (c : Dev nD) (t : Fin cfg0.N) (p : Fin 256) (k : Fin 1024) (R : Fin 16384) (hR : R.val = t.val * 256 + p.val) :
    (iblk m c 1 t : Vec Ideal S256x1024 .f32) (ix2 p k) = (m ((c : Thread nD τ).loc main_arg2) : S16384x1024.Idx → EReal) (ix2 R k) := by
  obtain ⟨-, -, e0, e1, -⟩ := idx_facts t
  unfold iblk
  rw [View.read_apply]
  show V m c main_arg2 _ = _
  rw [V_main_arg2]
  congr 1
  funext a; apply Fin.ext
  match a with
  | ⟨0, _⟩ => show win0_1.index t (0 : Fin 2) * 256 + 1 * p.val = R.val; rw [e0, hR]; omega
  | ⟨1, _⟩ => show win0_1.index t (1 : Fin 2) * 1024 + 1 * k.val = k.val; rw [e1]; omega

/-- The score window's block at point `t`, row `p`: the score of row `R`. -/
theorem blk_a (c : Dev nD) (t : Fin cfg0.N) (p : Fin 256) (R : Fin 16384) (hR : R.val = t.val * 256 + p.val) :
    (iblk m c 2 t : Vec Ideal S256x1 .f32) (ix2 p (0 : Fin 1)) = (m ((c : Thread nD τ).loc main_arg1) : S16384x1.Idx → EReal) (ix2 R (0 : Fin 1)) := by
  obtain ⟨-, -, -, -, e0, e1, -⟩ := idx_facts t
  unfold iblk
  rw [View.read_apply]
  show V m c main_arg1 _ = _
  rw [V_main_arg1]
  congr 1
  funext a; apply Fin.ext
  match a with
  | ⟨0, _⟩ => show win0_2.index t (0 : Fin 2) * 256 + 1 * p.val = R.val; rw [e0, hR]; omega
  | ⟨1, _⟩ => show win0_2.index t (1 : Fin 2) * 1 + 1 * 0 = 0; rw [e1]

/-- The first gate-weight window holds its array whole: at (k, n) the gate weights at (k, n). -/
theorem blk_wgx (c : Dev nD) (t : Fin cfg0.N) (k : Fin 1024) (n : Fin 2048) :
    (iblk m c 3 t : Vec Ideal S1024x2048 .bf16) (ix2 k n) = (m ((c : Thread nD τ).loc main_arg3) : S2048x2048.Idx → EReal) (ix2 (lo k) n) := by
  obtain ⟨-, -, -, -, -, -, e0, e1, -⟩ := idx_facts t
  refine Eq.trans ?_ (V_v1_apply m c k n)
  unfold iblk
  rw [View.read_apply]
  show V m c main_v1 _ = V m c main_v1 _
  congr 1
  funext a; apply Fin.ext
  match a with
  | ⟨0, _⟩ => show win0_3.index t (0 : Fin 2) * 1024 + 1 * k.val = k.val; rw [e0]; omega
  | ⟨1, _⟩ => show win0_3.index t (1 : Fin 2) * 2048 + 1 * n.val = n.val; rw [e1]; omega

/-- The second gate-weight window: at (k, n) the gate weights at (1024 + k, n). -/
theorem blk_wgh (c : Dev nD) (t : Fin cfg0.N) (k : Fin 1024) (n : Fin 2048) :
    (iblk m c 4 t : Vec Ideal S1024x2048 .bf16) (ix2 k n) = (m ((c : Thread nD τ).loc main_arg3) : S2048x2048.Idx → EReal) (ix2 (hi k) n) := by
  obtain ⟨-, -, -, -, -, -, -, -, e0, e1, -⟩ := idx_facts t
  refine Eq.trans ?_ (V_v3_apply m c k n)
  unfold iblk
  rw [View.read_apply]
  show V m c main_v3 _ = V m c main_v3 _
  congr 1
  funext a; apply Fin.ext
  match a with
  | ⟨0, _⟩ => show win0_4.index t (0 : Fin 2) * 1024 + 1 * k.val = k.val; rw [e0]; omega
  | ⟨1, _⟩ => show win0_4.index t (1 : Fin 2) * 2048 + 1 * n.val = n.val; rw [e1]; omega

/-- The gate-bias window holds the gate bias whole. -/
theorem blk_bg (c : Dev nD) (t : Fin cfg0.N) (n : Fin 2048) :
    (iblk m c 5 t : Vec Ideal S2048 .f32) (ix1 n) = (m ((c : Thread nD τ).loc main_arg4) : S2048.Idx → EReal) (ix1 n) := by
  obtain ⟨-, -, -, -, -, -, -, -, -, -, e0, -⟩ := idx_facts t
  unfold iblk
  rw [View.read_apply]
  show V m c main_arg4 _ = _
  rw [V_main_arg4]
  congr 1
  funext a; apply Fin.ext
  match a with
  | ⟨0, _⟩ => show win0_5.index t (0 : Fin 1) * 2048 + 1 * n.val = n.val; rw [e0]; omega

/-- The first candidate-weight window: at (k, n) the candidate weights at (k, n). -/
theorem blk_wcx (c : Dev nD) (t : Fin cfg0.N) (k : Fin 1024) (n : Fin 1024) :
    (iblk m c 6 t : Vec Ideal S1024x1024 .bf16) (ix2 k n) = (m ((c : Thread nD τ).loc main_arg5) : S2048x1024.Idx → EReal) (ix2 (lo k) n) := by
  obtain ⟨-, -, -, -, -, -, -, -, -, -, -, e0, e1, -⟩ := idx_facts t
  refine Eq.trans ?_ (V_v5_apply m c k n)
  unfold iblk
  rw [View.read_apply]
  show V m c main_v5 _ = V m c main_v5 _
  congr 1
  funext a; apply Fin.ext
  match a with
  | ⟨0, _⟩ => show win0_6.index t (0 : Fin 2) * 1024 + 1 * k.val = k.val; rw [e0]; omega
  | ⟨1, _⟩ => show win0_6.index t (1 : Fin 2) * 1024 + 1 * n.val = n.val; rw [e1]; omega

/-- The second candidate-weight window: at (k, n) the candidate weights at (1024 + k, n). -/
theorem blk_wch (c : Dev nD) (t : Fin cfg0.N) (k : Fin 1024) (n : Fin 1024) :
    (iblk m c 7 t : Vec Ideal S1024x1024 .bf16) (ix2 k n) = (m ((c : Thread nD τ).loc main_arg5) : S2048x1024.Idx → EReal) (ix2 (hi k) n) := by
  obtain ⟨-, -, -, -, -, -, -, -, -, -, -, -, -, e0, e1, -⟩ := idx_facts t
  refine Eq.trans ?_ (V_v7_apply m c k n)
  unfold iblk
  rw [View.read_apply]
  show V m c main_v7 _ = V m c main_v7 _
  congr 1
  funext a; apply Fin.ext
  match a with
  | ⟨0, _⟩ => show win0_7.index t (0 : Fin 2) * 1024 + 1 * k.val = k.val; rw [e0]; omega
  | ⟨1, _⟩ => show win0_7.index t (1 : Fin 2) * 1024 + 1 * n.val = n.val; rw [e1]; omega

/-- The candidate-bias window holds the candidate bias whole. -/
theorem blk_bc (c : Dev nD) (t : Fin cfg0.N) (n : Fin 1024) :
    (iblk m c 8 t : Vec Ideal S1024 .f32) (ix1 n) = (m ((c : Thread nD τ).loc main_arg6) : S1024.Idx → EReal) (ix1 n) := by
  obtain ⟨-, -, -, -, -, -, -, -, -, -, -, -, -, -, -, e0, -⟩ := idx_facts t
  unfold iblk
  rw [View.read_apply]
  show V m c main_arg6 _ = _
  rw [V_main_arg6]
  congr 1
  funext a; apply Fin.ext
  match a with
  | ⟨0, _⟩ => show win0_8.index t (0 : Fin 1) * 1024 + 1 * n.val = n.val; rw [e0]; omega

/-! ## From blocks to the array -/

/-- The new state of the arguments as launched. -/
abbrev whole (c : Dev nD) : S16384x1024.Idx → EReal :=
  newState (m ((c : Thread nD τ).loc main_arg0)) (m ((c : Thread nD τ).loc main_arg2)) (m ((c : Thread nD τ).loc main_arg1))
    (m ((c : Thread nD τ).loc main_arg3)) (m ((c : Thread nD τ).loc main_arg4)) (m ((c : Thread nD τ).loc main_arg5))
    (m ((c : Thread nD τ).loc main_arg6))

/-- WHAT POINT `t` WRITES BACK is block `t` of the new state. -/
theorem flushed_eq (c : Dev nD) (t : Fin cfg0.N) :
    (dats m 0 c).flushed 9 t = ((cfg0.win 9).blk t).view.read (Elt Ideal) (whole m c) := by
  rw [Value.flushed9]
  funext j
  obtain ⟨p, q, rfl⟩ : ∃ (p : Fin 256) (q : Fin 1024), j = ix2 p q := ⟨j 0, j 1, eq_ix2 j⟩
  show out0_9 (iblk m c 0 t) (iblk m c 1 t) (iblk m c 2 t) (iblk m c 3 t) (iblk m c 4 t) (iblk m c 5 t) (iblk m c 6 t) (iblk m c 7 t) (iblk m c 8 t) (ix2 p q)
    = whole m c (((cfg0.win 9).blk t).view.emb (ix2 p q))
  refine (out_apply (iblk m c 0 t) (iblk m c 1 t) (iblk m c 2 t) (iblk m c 3 t) (iblk m c 4 t) (iblk m c 5 t) (iblk m c 6 t) (iblk m c 7 t) (iblk m c 8 t) p q).trans ?_
  obtain ⟨-, -, -, -, -, -, -, -, -, -, -, -, -, -, -, -, e0, e1⟩ := idx_facts t
  have hR : ((((cfg0.win 9).blk t).view.emb (ix2 p q)) 0).val = t.val * 256 + p.val := by
    show win0_9.index t (0 : Fin 2) * 256 + 1 * p.val = _; rw [e0]; omega
  have hQ : q = (((cfg0.win 9).blk t).view.emb (ix2 p q)) 1 := Fin.ext (by
    show q.val = win0_9.index t (1 : Fin 2) * 1024 + 1 * q.val; rw [e1]; omega)
  exact cell_congr (funext fun k => blk_x m c t p k _ hR) (funext fun k => blk_h m c t p k _ hR) (blk_a m c t p _ hR)
    (funext fun k => funext fun n => blk_wgx m c t k n) (funext fun k => funext fun n => blk_wgh m c t k n)
    (funext fun n => blk_bg m c t n) (funext fun k => funext fun n => blk_wcx m c t k n)
    (funext fun k => funext fun n => blk_wch m c t k n) (funext fun n => blk_bc m c t n) hQ

/-- An index of the array is in point `t`'s block iff each coordinate is in the block's range on its axis. -/
theorem mem_blk (t : Fin cfg0.N) (i : S16384x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v8).slice (win0_9.rect t)).set ↔ _
  rw [View.set_slice_whole, Rect.mem_set_unit]
  exact Iff.rfl

/-- Every index of the array is in some point's block: row `r` in block `r / 256`. -/
theorem cover (i : S16384x1024.Idx) : ∃ t : Fin cfg0.N, (cfg0.win 9).flush t = true ∧ i ∈ ((cfg0.win 9).blk t).view.set := by
  have h0 : (i 0).val < 16384 := (i 0).isLt
  have h1 : (i 1).val < 1024 := (i 1).isLt
  have hN : cfg0.N = 64 := N_0
  have ht : (i 0).val / 256 < cfg0.N := by rw [hN]; omega
  obtain ⟨-, -, -, -, -, -, -, -, -, -, -, -, -, -, -, -, e0, e1⟩ := idx_facts ⟨(i 0).val / 256, ht⟩
  refine ⟨⟨(i 0).val / 256, ht⟩, flush0_9 _, ?_⟩
  rw [mem_blk]
  intro a
  match a with
  | ⟨0, _⟩ =>
    show win0_9.index ⟨(i 0).val / 256, ht⟩ (0 : Fin 2) * 256 ≤ (i 0).val ∧ (i 0).val < win0_9.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_9.index ⟨(i 0).val / 256, ht⟩ (1 : Fin 2) * 1024 ≤ (i 1).val ∧ (i 1).val < win0_9.index ⟨(i 0).val / 256, ht⟩ (1 : Fin 2) * 1024 + 1024
    rw [e1]; omega

/-- THE ARRAY after the run is the new state of the arguments. -/
theorem final (c : Dev nD) : (dats m 0 c).arrAt 9 cfg0.N = whole m c :=
  (dats m 0 c).arrAt_eq_of_cover 9 (whole m c) (fun t _ => flushed_eq m c t) cover

/-- The run, read: the result array at the new state of the arguments, the arguments unchanged. -/
theorem run : θ_run defs (onTc (τ := τ) (main (F := Ideal))) ⟨m, fun _ => 0, ρ⟩ fun r => ∀ c : Dev nD,
      r.2.mem ((c : Thread nD τ).loc main_v8) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.Whole

end
-- ==== Proof.RefCell.lean ====
/-
  The reference's result, index by index, is the cell's new state.

  jnp's reference joins the input and the state along the feature axis and multiplies the joined [16384, 2048] array
  by the whole gate weights; the new state's specification (Proof/Cell.lean) multiplies the two halves separately and
  adds. Entry (b, n) of the joined product is a sum over 2048 joined indices, which is the sum over the first 1024
  (where the joined row reads the input row) plus the sum over the last 1024 (where it reads the state row):
  `Gru.sum_lo_hi`. The same for the candidate, whose joined row reads the input and then the reset-gated state.
  jnp's sigmoid arrives expanded as 1 / (1 + exp (-v)), which is the logistic function's definition on the extended
  reals, the constant 1.0 being the extended real one.
-/
import proofs.«152979_j13134009991515_1_alg».proof.Proof.RefRead
import proofs.«152979_j13134009991515_1_alg».proof.Proof.Cell
import Idealize.ShloMosaic.Lib.IdealHost

noncomputable section

namespace Cert.ReferenceIdeal.Spec

open Cert.ReferenceIdeal Cert.ReferenceIdeal.Gen Cert.ReferenceIdeal.ReadP Idealize.ShloMosaic Idealize.ShloMosaic.ValueIdx Cert.Gru

variable (x0 x2 : (⟨S16384x1024, .f32⟩ : BufTy).Contents (Elt Ideal)) (x1 : (⟨S16384x1, .f32⟩ : BufTy).Contents (Elt Ideal))
  (x3 : (⟨S2048x2048, .f32⟩ : BufTy).Contents (Elt Ideal)) (x4 : (⟨S2048, .f32⟩ : BufTy).Contents (Elt Ideal))
  (x5 : (⟨S2048x1024, .f32⟩ : BufTy).Contents (Elt Ideal)) (x6 : (⟨S1024, .f32⟩ : BufTy).Contents (Elt Ideal))

/-! ## A joined row -/

/-- A two-piece join along the feature axis, at a column of the first half, reads the first piece. -/
theorem cat_lo (a c : (⟨S16384x1024, .f32⟩ : BufTy).Contents (Elt Ideal)) (b : Fin 16384) (k : Fin 1024) :
    concatenate S16384x2048 1 [⟨S16384x1024, a⟩, ⟨S16384x1024, c⟩] concatenates_S16384x1024_S16384x1024_S16384x2048_d1
      (ix2 b (lo k)) = a (ix2 b k) :=
  concatenate_pair_apply_left 1 a c _ (ix2 b (lo k)) rfl (ix2 b k) (fun d => match d with
    | ⟨0, _⟩ => rfl
    | ⟨1, _⟩ => rfl)

/-- At a column of the second half it reads the second piece, 1024 columns back. -/
theorem cat_hi (a c : (⟨S16384x1024, .f32⟩ : BufTy).Contents (Elt Ideal)) (b : Fin 16384) (k : Fin 1024) :
    concatenate S16384x2048 1 [⟨S16384x1024, a⟩, ⟨S16384x1024, c⟩] concatenates_S16384x1024_S16384x1024_S16384x2048_d1
      (ix2 b (hi k)) = c (ix2 b k) :=
  concatenate_pair_apply_right 1 a c _ (ix2 b (hi k)) rfl rfl (ix2 b k) (fun d => match d with
    | ⟨0, _⟩ => fun _ => rfl
    | ⟨1, _⟩ => fun h => absurd rfl h) (by show k.val + 1024 = 1024 + k.val; omega)

/-! ## The gates -/

/-- The expanded sigmoid of the joined product plus the bias, at row `b` and gate column `n`, is `Gru.gate` of row
    `b` of the input and of the state. -/
theorem gate_apply (b : Fin 16384) (n : Fin 2048) :
    val_main_v10 (F := Ideal) x0 x2 x3 x4 (ix2 b n)
      = gate (fun k => x0 (ix2 b k)) (fun k => x2 (ix2 b k)) (fun k n => x3 (ix2 (lo k) n)) (fun k n => x3 (ix2 (hi k) n))
          (fun n => x4 (ix1 n)) n := by
  rw [val_main_v10_apply, val_main_v9_apply, val_main_cst_0_apply, val_main_v8_apply, val_main_v7_apply, val_main_cst_apply,
    val_main_v6_apply, val_main_v5_apply, val_main_v4_apply, val_main_v1_apply, val_main_v3_apply, val_main_v2_apply, sum_lo_hi]
  unfold gate Ideal.logistic val_main_v0
  simp only [Ideal.hostDivf_def, Ideal.addf_def, Ideal.hostUnary_exp_def, Ideal.hostNegf_def, Ideal.negf_def, Ideal.ofBits_def,
    Ideal.ofBits_one_f32]
  have e1 : ∀ k : Fin 1024, lidx_main_v1 (ix2 b n) (lo k) = ix2 b (lo k) := fun k => funext fun a => Fin.ext (by
    match a with | ⟨0, _⟩ => rfl | ⟨1, _⟩ => rfl)
  have e2 : ∀ k : Fin 1024, lidx_main_v1 (ix2 b n) (hi k) = ix2 b (hi k) := fun k => funext fun a => Fin.ext (by
    match a with | ⟨0, _⟩ => rfl | ⟨1, _⟩ => rfl)
  have e3 : ∀ k : Fin 2048, ridx_main_v1 (ix2 b n) k = ix2 k n := fun k => funext fun a => Fin.ext (by
    match a with | ⟨0, _⟩ => rfl | ⟨1, _⟩ => rfl)
  have e4 : idx_main_v2 (idx_main_v3 (ix2 b n)) = ix1 n := funext fun a => Fin.ext (by
    match a with | ⟨0, _⟩ => rfl)
  simp only [e1, e2, e3, e4]
  refine congrArg (fun z => Ideal.div 1 (1 + Ideal.exp (-(z + x4 (ix1 n))))) ?_
  congr 1
  · exact Finset.sum_congr rfl fun k _ => by rw [cat_lo]
  · exact Finset.sum_congr rfl fun k _ => by rw [cat_hi]

/-! ## The candidate -/

/-- The hyperbolic tangent of the second joined product plus the bias, at row `b` and column `q`, is `Gru.cand`. -/
theorem cand_apply (b : Fin 16384) (q : Fin 1024) :
    val_main_v19 (F := Ideal) x0 x2 x3 x4 x5 x6 (ix2 b q)
      = cand (fun k => x0 (ix2 b k)) (fun k => x2 (ix2 b k)) (fun k n => x3 (ix2 (lo k) n)) (fun k n => x3 (ix2 (hi k) n))
          (fun n => x4 (ix1 n)) (fun k n => x5 (ix2 (lo k) n)) (fun k n => x5 (ix2 (hi k) n)) (fun n => x6 (ix1 n)) q := by
  rw [val_main_v19_apply, val_main_v18_apply, val_main_v15_apply, val_main_v17_apply, val_main_v16_apply, sum_lo_hi]
  unfold cand val_main_v14
  simp only [Ideal.addf_def, Ideal.hostUnary_tanh_def]
  have e1 : ∀ k : Fin 1024, lidx_main_v15 (ix2 b q) (lo k) = ix2 b (lo k) := fun k => funext fun a => Fin.ext (by
    match a with | ⟨0, _⟩ => rfl | ⟨1, _⟩ => rfl)
  have e2 : ∀ k : Fin 1024, lidx_main_v15 (ix2 b q) (hi k) = ix2 b (hi k) := fun k => funext fun a => Fin.ext (by
    match a with | ⟨0, _⟩ => rfl | ⟨1, _⟩ => rfl)
  have e3 : ∀ k : Fin 2048, ridx_main_v15 (ix2 b q) k = ix2 k q := fun k => funext fun a => Fin.ext (by
    match a with | ⟨0, _⟩ => rfl | ⟨1, _⟩ => rfl)
  have e4 : idx_main_v16 (idx_main_v17 (ix2 b q)) = ix1 q := funext fun a => Fin.ext (by
    match a with | ⟨0, _⟩ => rfl)
  have e5 : ∀ k : Fin 1024, idx_main_v11 (ix2 b k) = ix2 b (lo k) := fun k => funext fun a => Fin.ext (by
    match a with | ⟨0, _⟩ => rfl | ⟨1, _⟩ => rfl)
  simp only [e1, e2, e3, e4]
  refine congrArg (fun z => Ideal.tanh (z + x6 (ix1 q))) ?_
  congr 1
  · exact Finset.sum_congr rfl fun k _ => by rw [cat_lo]
  · refine Finset.sum_congr rfl fun k _ => ?_
    rw [cat_hi, val_main_v13_apply, val_main_v11_apply, e5, gate_apply]
    rfl

/-! ## The result -/

/-- The reference's result at (b, q) is the cell's new state there. -/
theorem result_apply (i : S16384x1024.Idx) :
    val_main_v28 (F := Ideal) x0 x1 x2 x3 x4 x5 x6 i = newState x0 x2 x1 x3 x4 x5 x6 i := by
  obtain ⟨b, q, rfl⟩ : ∃ (b : Fin 16384) (q : Fin 1024), i = ix2 b q := ⟨i 0, i 1, eq_ix2 i⟩
  rw [val_main_v28_apply, val_main_v24_apply, val_main_v23_apply, val_main_v22_apply, val_main_v21_apply, val_main_v20_apply,
    val_main_cst_1_apply, val_main_v12_apply, val_main_v27_apply, val_main_v26_apply, val_main_v25_apply, val_main_cst_2_apply,
    val_main_v23_apply, val_main_v22_apply, val_main_v21_apply, val_main_v20_apply, val_main_cst_1_apply, val_main_v12_apply,
    cand_apply]
  have e1 : idx_main_v12 (ix2 b q) = ix2 b (hi q) := funext fun a => Fin.ext (by
    match a with | ⟨0, _⟩ => rfl | ⟨1, _⟩ => rfl)
  have e2 : idx_main_v22 (ix2 b q) = ix2 b (0 : Fin 1) := funext fun a => Fin.ext (by
    match a with | ⟨0, _⟩ => rfl | ⟨1, _⟩ => rfl)
  rw [e1, e2, gate_apply]
  simp only [Ideal.addf_def, Ideal.mulf_def, Ideal.subf_def, Ideal.ofBits_def, Ideal.ofBits_one_f32]
  rfl

/-- So the reference's result array IS the new state of the arguments. -/
theorem result_eq : val_main_v28 (F := Ideal) x0 x1 x2 x3 x4 x5 x6 = newState x0 x2 x1 x3 x4 x5 x6 :=
  funext fun i => result_apply x0 x2 x1 x3 x4 x5 x6 i

end Cert.ReferenceIdeal.Spec

end
-- ==== Proof.lean ====
/-
  An attention-gated GRU cell as one fused kernel over 64 tiles of 256 batch rows, against its jnp reference, equal
  over the extended reals.

  Both compute, for each batch row with input `x`, previous state `h` and attention score `a`,

    gate = σ([x, h] · W_gate + b_gate),   r, u = the two halves of gate,
    c    = tanh([x, r ∘ h] · W_cand + b_cand),
    u'   = (1 - a) · u,      new = u' ∘ h + (1 - u') ∘ c.

  The reference joins `x` and `h` (then `x` and `r ∘ h`) along the feature axis and multiplies by the whole weight
  matrix; the kernel multiplies `x` by the first 1024 rows and `h` by the last 1024 rows and adds the two products. At
  the ideal values a product's entry is the exact sum over the contracted index, so the two differ by splitting a sum
  over 2048 indices into its two halves, which holds for the extended reals' addition with no finiteness needed
  (Proof/Cell.lean, `sum_lo_hi`). The kernel's bf16 operands are the same numbers (a change of float format is the
  identity), its logistic is the function 1 / (1 + exp (-v)) that the reference spells out, and both take the same
  hyperbolic tangent. So both results are `Gru.newState` of the arguments: the kernel's by Proof/KernelPay.lean (the
  body at an index) and Proof/KernelValue.lean (blocks to the array), the reference's by Proof/RefCell.lean.
  The ideal pass rewrote nothing, so `preserves` is `True`; the precondition is never opened.
-/
import proofs.«152979_j13134009991515_1_alg».proof.Defs
import proofs.«152979_j13134009991515_1_alg».proof.Proof.Gen.Kernel
import proofs.«152979_j13134009991515_1_alg».proof.Proof.Gen.Kernel.Frame
import proofs.«152979_j13134009991515_1_alg».proof.Proof.Gen.KernelIdeal
import proofs.«152979_j13134009991515_1_alg».proof.Proof.Gen.KernelIdeal.Frame
import proofs.«152979_j13134009991515_1_alg».proof.Proof.Gen.ReferenceIdeal
import proofs.«152979_j13134009991515_1_alg».proof.Proof.Gen.Pre_finite_inputs
import proofs.«152979_j13134009991515_1_alg».proof.Proof.KernelValue
import proofs.«152979_j13134009991515_1_alg».proof.Proof.RefCell
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The kernel's result array ends at the new state of its arguments, the reference's at the new state of its own;
    the arguments agree. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6⟩ := hagree c
  rw [a0, a1, a2, a3, a4, a5, a6]
  exact (Cert.ReferenceIdeal.ReadP.val_main_v28_eq _ _ _ _ _ _ _).trans (Cert.ReferenceIdeal.Spec.result_eq _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
